-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S384x512 : Shape := ⟨2, ![384, 512]⟩
abbrev S512 : Shape := ⟨1, ![512]⟩
abbrev S512x128 : Shape := ⟨2, ![512, 128]⟩
abbrev S128 : Shape := ⟨1, ![128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S384x512 : S_.BroadcastsInDim S384x512 (![] : Fin 0 → Fin S384x512.rank)
  reducesTo_S384x512_S_d0_1 : S384x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_arg8 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S512 .f32) (main_arg5 : FVec F S512x128 .f32) (main_arg6 : FVec F S128 .f32) (main_arg7 : FVec F S128 .f32) (main_arg8 : FVec F S128 .f32) (main_v13 : IVec S_ 1) (main_v16 : IVec S384x512 1) : IVec S_ 1 :=
  let main_c_5 : IVec S_ 1 := constantI S_ 1 1#1
  let main_v17 : IVec S_ 1 := (fun x v => Host.reduce IntOp.andi x v reducesTo_S384x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x128 .f32 := Host.absf main_arg5
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S262144x128 .f32) (main_arg1 : FVec F S262144x128 .f32) (main_arg2 : FVec F S262144x128 .f32) (main_arg3 : FVec F S384x512 .f32) (main_arg4 : FVec F S512 .f32) (main_arg5 : FVec F S512x128 .f32) (main_arg6 : FVec F S128 .f32) (main_arg7 : FVec F S128 .f32) (main_arg8 : FVec F S128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S262144x128 .f32 := Host.absf main_arg2
  let main_cst_2 : FVec F S_ .f32 := constant S_ .f32 0x7F800000#32
  let main_v10 : FVec F S262144x128 .f32 := broadcastInDim S262144x128 ![] bcast_S_S262144x128 main_cst_2
  let main_v11 : IVec S262144x128 1 := cmpf .olt main_v9 main_v10
  let main_c_3 : IVec S_ 1 := constantI S_ 1 1#1
  let main_v12 : IVec S_ 1 := (fun x v => Host.reduce IntOp.andi x v reducesTo_S262144x128_S_d0_1 h_S_) main_v11 main_c_3
  let main_v13 : IVec S_ 1 := andi main_v8 main_v12
  let main_v14 : FVec F S384x512 .f32 := Host.absf main_arg3
  let main_cst_4 : FVec F S_ .f32 := constant S_ .f32 0x7F800000#32
  let main_v15 : FVec F S384x512 .f32 := broadcastInDim S384x512 ![] bcast_S_S384x512 main_cst_4
  let main_v16 : IVec S384x512 1 := cmpf .olt main_v14 main_v15
  fn_part1 (F := F) main_arg4 main_arg5 main_arg6 main_arg7 main_arg8 main_v13 main_v16
-- ==== Kernel.lean ====
abbrev S262144x128 : Shape := ⟨2, ![262144, 128]⟩
abbrev S384x512 : Shape := ⟨2, ![384, 512]⟩
abbrev S512 : Shape := ⟨1, ![512]⟩
abbrev S512x128 : Shape := ⟨2, ![512, 128]⟩
abbrev S128 : Shape := ⟨1, ![128]⟩
abbrev S128x512 : Shape := ⟨2, ![128, 512]⟩
abbrev S1x512 : Shape := ⟨2, ![1, 512]⟩
abbrev S1x128 : Shape := ⟨2, ![1, 128]⟩
abbrev S2048x128 : Shape := ⟨2, ![2048, 128]⟩
abbrev S2048x512 : Shape := ⟨2, ![2048, 512]⟩
abbrev S2048 : Shape := ⟨1, ![2048]⟩
abbrev S2048x1 : Shape := ⟨2, ![2048, 1]⟩

abbrev nBuf : Space → Nat
  | .hbm => 21
  | .vmem => 16
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S384x512, .f32⟩
  | .hbm, ⟨4, _⟩ => ⟨S512, .f32⟩
  | .hbm, ⟨5, _⟩ => ⟨S512x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x512, .f32⟩
  | .hbm, ⟨10, _⟩ => ⟨S128x512, .bf16⟩
  | .hbm, ⟨11, _⟩ => ⟨S128x512, .f32⟩
  | .hbm, ⟨12, _⟩ => ⟨S128x512, .bf16⟩
  | .hbm, ⟨13, _⟩ => ⟨S128x512, .f32⟩
  | .hbm, ⟨14, _⟩ => ⟨S128x512, .bf16⟩
  | .hbm, ⟨15, _⟩ => ⟨S512x128, .bf16⟩
  | .hbm, ⟨16, _⟩ => ⟨S1x512, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S262144x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S1x512, .f32⟩
  | .local _ .vmem, ⟨10, _⟩ => ⟨S512x128, .bf16⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S2048x128, .f32⟩
  | .local _ .vmem, ⟨15, _⟩ => ⟨S2048x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S384x512_S128x512_0_0 : S384x512.Slices ![0, 0] S128x512
  bitsLt_bf16_f32 : FTy.bits .bf16 < FTy.bits .f32
  slices_S384x512_S128x512_128_0 : S384x512.Slices ![128, 0] S128x512
  slices_S384x512_S128x512_256_0 : S384x512.Slices ![256, 0] S128x512
  shapeCasts_S512_S1x512 : S512.ShapeCasts S1x512
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  reduces_S2048x128_S2048 : S2048x128.Reduces [1] S2048
  shapeCasts_S2048_S2048x1 : S2048.ShapeCasts S2048x1
  broadcasts_S2048x1_S2048x128 : S2048x1.Broadcasts S2048x128
  dot_S2048x128_S128x512_S2048x512_1_0_0_1_n_n_wf : DotDims.WF S2048x128 S128x512 S2048x512 [1] [0] [0] [1] [] []
  dot_S2048x512_S512x128_S2048x128_1_0_0_1_n_n_wf : DotDims.WF S2048x512 S512x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S262144x128.size a
  hwx0_0 : ∀ i : grid0.Coords, EltTy.bits .f32 = 32 ∨ (Rect.block (s := S262144x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S262144x128.size a
  hwx0_1 : ∀ i : grid0.Coords, EltTy.bits .f32 = 32 ∨ (Rect.block (s := S262144x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S262144x128.size a
  hwx0_2 : ∀ i : grid0.Coords, EltTy.bits .f32 = 32 ∨ (Rect.block (s := S262144x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .bf16 = 32 ∨ (Rect.block (s := S128x512) S128x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .bf16 = 32 ∨ (Rect.block (s := S128x512) S128x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S128x512.size a
  hwx0_5 : ∀ i : grid0.Coords, EltTy.bits .bf16 = 32 ∨ (Rect.block (s := S128x512) S128x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S512x128.size a
  hwx0_7 : ∀ i : grid0.Coords, EltTy.bits .bf16 = 32 ∨ (Rect.block (s := S512x128) S512x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x128.size a ≤ S262144x128.size a
  hwx0_11 : ∀ i : grid0.Coords, EltTy.bits .f32 = 32 ∨ (Rect.block (s := S262144x128) S2048x128.size (cc0_transform_11 i) (hinb0_11 i)).WholeWords (EltTy.packing .f32)

variable [Facts₀]

def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S128x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S512x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S2048x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S262144x128 : Shape := ⟨2, ![262144, 128]⟩
abbrev S384x512 : Shape := ⟨2, ![384, 512]⟩
abbrev S512 : Shape := ⟨1, ![512]⟩
abbrev S512x128 : Shape := ⟨2, ![512, 128]⟩
abbrev S128 : Shape := ⟨1, ![128]⟩
abbrev S262144x384 : Shape := ⟨2, ![262144, 384]⟩
abbrev S262144x512 : Shape := ⟨2, ![262144, 512]⟩
abbrev S1x512 : Shape := ⟨2, ![1, 512]⟩
abbrev S_ : Shape := ⟨0, ![]⟩
abbrev S1x128 : Shape := ⟨2, ![1, 128]⟩
abbrev S262144 : Shape := ⟨1, ![262144]⟩
abbrev S262144x1 : Shape := ⟨2, ![262144, 1]⟩

abbrev nBuf : Space → Nat
  | .hbm => 57
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S384x512, .f32⟩
  | .hbm, ⟨4, _⟩ => ⟨S512, .f32⟩
  | .hbm, ⟨5, _⟩ => ⟨S512x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S262144x384, .f32⟩
  | .hbm, ⟨10, _⟩ => ⟨S262144x512, .f32⟩
  | .hbm, ⟨11, _⟩ => ⟨S1x512, .f32⟩
  | .hbm, ⟨12, _⟩ => ⟨S262144x512, .f32⟩
  | .hbm, ⟨13, _⟩ => ⟨S262144x512, .f32⟩
  | .hbm, ⟨14, _⟩ => ⟨S262144x512, .f32⟩
  | .hbm, ⟨15, _⟩ => ⟨S262144x512, .f32⟩
  | .hbm, ⟨16, _⟩ => ⟨S_, .f32⟩
  | .hbm, ⟨17, _⟩ => ⟨S262144x512, .f32⟩
  | .hbm, ⟨18, _⟩ => ⟨S262144x512, .f32⟩
  | .hbm, ⟨19, _⟩ => ⟨S_, .f32⟩
  | .hbm, ⟨20, _⟩ => ⟨S262144x512, .f32⟩
  | .hbm, ⟨21, _⟩ => ⟨S262144x512, .f32⟩
  | .hbm, ⟨22, _⟩ => ⟨S262144x512, .f32⟩
  | .hbm, ⟨23, _⟩ => ⟨S262144x128, .f32⟩
  | .hbm, ⟨24, _⟩ => ⟨S1x128, .f32⟩
  | .hbm, ⟨25, _⟩ => ⟨S262144x128, .f32⟩
  | .hbm, ⟨26, _⟩ => ⟨S262144x128, .f32⟩
  | .hbm, ⟨27, _⟩ => ⟨S_, .f32⟩
  | .hbm, ⟨28, _⟩ => ⟨S262144, .f32⟩
  | .hbm, ⟨29, _⟩ => ⟨S262144x1, .f32⟩
  | .hbm, ⟨30, _⟩ => ⟨S_, .f32⟩
  | .hbm, ⟨31, _⟩ => ⟨S262144x1, .f32⟩
  | .hbm, ⟨32, _⟩ => ⟨S262144x1, .f32⟩
  | .hbm, ⟨33, _⟩ => ⟨S262144x128, .f32⟩
  | .hbm, ⟨34, _⟩ => ⟨S262144x128, .f32⟩
  | .hbm, ⟨35, _⟩ => ⟨S262144x128, .f32⟩
  | .hbm, ⟨36, _⟩ => ⟨S_, .f32⟩
  | .hbm, ⟨37, _⟩ => ⟨S262144, .f32⟩
  | .hbm, ⟨38, _⟩ => ⟨S262144x1, .f32⟩
  | .hbm, ⟨39, _⟩ => ⟨S_, .f32⟩
  | .hbm, ⟨40, _⟩ => ⟨S262144x1, .f32⟩
  | .hbm, ⟨41, _⟩ => ⟨S262144x1, .f32⟩
  | .hbm, ⟨42, _⟩ => ⟨S262144x128, .f32⟩
  | .hbm, ⟨43, _⟩ => ⟨S262144x128, .f32⟩
  | .hbm, ⟨44, _⟩ => ⟨S_, .f32⟩
  | .hbm, ⟨45, _⟩ => ⟨S262144x1, .f32⟩
  | .hbm, ⟨46, _⟩ => ⟨S262144x1, .f32⟩
  | .hbm, ⟨47, _⟩ => ⟨S262144x1, .f32⟩
  | .hbm, ⟨48, _⟩ => ⟨S262144x128, .f32⟩
  | .hbm, ⟨49, _⟩ => ⟨S262144x128, .f32⟩
  | .hbm, ⟨50, _⟩ => ⟨S1x128, .f32⟩
  | .hbm, ⟨51, _⟩ => ⟨S262144x128, .f32⟩
  | .hbm, ⟨52, _⟩ => ⟨S262144x128, .f32⟩
  | .hbm, ⟨53, _⟩ => ⟨S1x128, .f32⟩
  | .hbm, ⟨54, _⟩ => ⟨S262144x128, .f32⟩
  | .hbm, ⟨55, _⟩ => ⟨S262144x128, .f32⟩
  | .hbm, ⟨56, _⟩ => ⟨S262144x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_v11 : Ref sig .tc := ⟨.hbm, 29, rfl⟩
abbrev main_cst_0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_1 : Ref sig .tc := ⟨.hbm, 36, rfl⟩
abbrev main_v17 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]

class Facts₀ : Prop where
  concatenates_S262144x128_S262144x128_S262144x128_S262144x384_d1 : Shape.Concatenates [S262144x128, S262144x128, S262144x128] S262144x384 1
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  bcast_S_S262144x512 : S_.BroadcastsInDim S262144x512 (![] : Fin 0 → Fin S262144x512.rank)
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  reducesTo_S262144x128_S262144_d1 : S262144x128.ReducesTo [1] S262144
  h_S_ : 0 < S_.numel
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x128_0_1 : S262144x1.BroadcastsInDim S262144x128 (![0, 1] : Fin 2 → Fin S262144x128.rank)
  dot_S262144x384_S384x512_S262144x512_1_0_0_1_n_n_wf : DotDims.WF S262144x384 S384x512 S262144x512 [1] [0] [0] [1] [] []
  dot_S262144x512_S512x128_S262144x128_1_0_0_1_n_n_wf : DotDims.WF S262144x512 S512x128 S262144x128 [1] [0] [0] [1] [] []

variable [Facts₀]

def dot_S262144x384_S384x512_S262144x512_1_0_0_1_n_n : DotDims S262144x384 S384x512 S262144x512 where
  lhsContracting := [1]
  rhsContracting := [0]
  lhsNonContracting := [0]
  rhsNonContracting := [1]
  lhsBatch := []
  rhsBatch := []
  wf := dot_S262144x384_S384x512_S262144x512_1_0_0_1_n_n_wf
def dot_S262144x512_S512x128_S262144x128_1_0_0_1_n_n : DotDims S262144x512 S512x128 S262144x128 where
  lhsContracting := [1]
  rhsContracting := [0]
  lhsNonContracting := [0]
  rhsNonContracting := [1]
  lhsBatch := []
  rhsBatch := []
  wf := dot_S262144x512_S512x128_S262144x128_1_0_0_1_n_n_wf

class Facts : Prop extends Facts₀ where

variable [Facts]
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.EdgeSpec.lean ====
/-
  One edge's update, as mathematics on the extended reals.

  An edge carries three feature rows of length 128 (source node, target node, edge). The update is
    pre-activation  p j = Σₖ xi k · Wi k j + Σₖ xj k · Wj k j + Σₖ ea k · We k j + b1 j      (j < 512)
    activation      s j = p j · logistic (p j)
    projection      h d = Σⱼ s j · W2 j d + b2 d                                              (d < 128)
    normalisation   out d = (h d − μ) · rsqrt (σ² + ε) · γ d + β d + ea d,
  with μ the mean of h and σ² the mean of (h − μ)², both as a sum divided by 128.

  Stacking the three rows into one row of length 384 and the three weight blocks into one 384 × 512 matrix turns the
  three sums of the pre-activation into one sum over 384 terms: `sum_three_blocks`, which needs only that addition
  of extended reals is associative and commutative.
-/
import Idealize.ShloMosaic.Lib.ValueIdx
import Idealize.ShloMosaic.PureOps.Ideal.Laws

noncomputable section

open scoped BigOperators

namespace Cert.EdgeMlp

open Idealize.ShloMosaic

/-- The divisor of both means: the f32 pattern of 128. -/
abbrev c128 : EReal := Ideal.ofBits .f32 0x43000000#32

/-- The variance's offset ε: the f32 pattern nearest 1e-5, the same word in both programs. -/
abbrev eps : EReal := Ideal.ofBits .f32 0x3727C5AC#32

/-- The pre-activation of hidden unit `j`: the three rows against their three weight blocks, plus the bias. -/
def pre (xi xj ea : Fin 128 → EReal) (wi wj we : Fin 128 → Fin 512 → EReal) (b1 : Fin 512 → EReal) (j : Fin 512) :
    EReal :=
  ((∑ k, xi k * wi k j + ∑ k, xj k * wj k j) + ∑ k, ea k * we k j) + b1 j

/-- x · logistic x. -/
def act (x : EReal) : EReal := x * Ideal.logistic x

/-- The second linear layer at output unit `d`. -/
def proj (s : Fin 512 → EReal) (w2 : Fin 512 → Fin 128 → EReal) (b2 : Fin 128 → EReal) (d : Fin 128) : EReal :=
  (∑ j, s j * w2 j d) + b2 d

/-- The mean of a row of 128 entries: their sum divided by 128. -/
def mean (h : Fin 128 → EReal) : EReal := Ideal.div (∑ k, h k) c128

/-- Layer normalisation of the row `h` with scale `g` and shift `b`, then the residual `res`. -/
def norm (h g b res : Fin 128 → EReal) (d : Fin 128) : EReal :=
  (((h d - mean h) * Ideal.rsqrt (mean (fun k => (h k - mean h) * (h k - mean h)) + eps)) * g d + b d) + res d

/-- One edge's whole update at output unit `d`. -/
def edge (xi xj ea : Fin 128 → EReal) (wi wj we : Fin 128 → Fin 512 → EReal) (b1 : Fin 512 → EReal)
    (w2 : Fin 512 → Fin 128 → EReal) (b2 g b : Fin 128 → EReal) (d : Fin 128) : EReal :=
  norm (proj (fun j => act (pre xi xj ea wi wj we b1 j)) w2 b2) g b ea d

/-- A sum over 384 terms is the sum of its three consecutive blocks of 128. -/
theorem sum_three_blocks (f : Fin 384 → EReal) :
    ∑ k : Fin 384, f k
      = (∑ k : Fin 128, f ⟨k.val, by have := k.isLt; omega⟩
          + ∑ k : Fin 128, f ⟨128 + k.val, by have := k.isLt; omega⟩)
        + ∑ k : Fin 128, f ⟨256 + k.val, by have := k.isLt; omega⟩ := by
  have h1 := Fin.sum_univ_add (a := 256) (b := 128) (f : Fin (256 + 128) → EReal)
  have h2 := Fin.sum_univ_add (a := 128) (b := 128) (fun i : Fin (128 + 128) => f (Fin.castAdd 128 i))
  rw [h1, h2]
  rfl

open Idealize.ShloMosaic.ValueIdx in
/-- The whole result array as one function of the nine argument arrays: entry (e, d) is the update of edge `e` at output
    unit `d`, the three feature rows being rows `e` of the first three arrays and the three weight blocks rows 0–127,
    128–255 and 256–383 of the first weight matrix. -/
def edgeArr (X0 X1 X2 : (⟨2, ![262144, 128]⟩ : Shape).Idx → EReal) (W1 : (⟨2, ![384, 512]⟩ : Shape).Idx → EReal)
    (B1 : (⟨1, ![512]⟩ : Shape).Idx → EReal) (W2 : (⟨2, ![512, 128]⟩ : Shape).Idx → EReal)
    (B2 Gm Bt : (⟨1, ![128]⟩ : Shape).Idx → EReal) : (⟨2, ![262144, 128]⟩ : Shape).Idx → EReal := fun i =>
  edge (fun k => X0 (ix2 (⟨(i 0).val, idx2_lt0 i⟩ : Fin 262144) k))
    (fun k => X1 (ix2 (⟨(i 0).val, idx2_lt0 i⟩ : Fin 262144) k))
    (fun k => X2 (ix2 (⟨(i 0).val, idx2_lt0 i⟩ : Fin 262144) k))
    (fun k j => W1 (ix2 (⟨k.val, by have := k.isLt; omega⟩ : Fin 384) j))
    (fun k j => W1 (ix2 (⟨128 + k.val, by have := k.isLt; omega⟩ : Fin 384) j))
    (fun k j => W1 (ix2 (⟨256 + k.val, by have := k.isLt; omega⟩ : Fin 384) j))
    (fun j => B1 (ix1 j)) (fun j d => W2 (ix2 j d)) (fun d => B2 (ix1 d)) (fun d => Gm (ix1 d)) (fun d => Bt (ix1 d))
    (⟨(i 1).val, idx2_lt1 i⟩ : Fin 128)

open Idealize.ShloMosaic.ValueIdx in
/-- The array function at an entry given by its two coordinates. -/
theorem edgeArr_ix2 (X0 X1 X2 : (⟨2, ![262144, 128]⟩ : Shape).Idx → EReal) (W1 : (⟨2, ![384, 512]⟩ : Shape).Idx → EReal)
    (B1 : (⟨1, ![512]⟩ : Shape).Idx → EReal) (W2 : (⟨2, ![512, 128]⟩ : Shape).Idx → EReal)
    (B2 Gm Bt : (⟨1, ![128]⟩ : Shape).Idx → EReal) (e : Fin 262144) (d : Fin 128) :
    edgeArr X0 X1 X2 W1 B1 W2 B2 Gm Bt (ix2 e d)
      = edge (fun k => X0 (ix2 e k)) (fun k => X1 (ix2 e k)) (fun k => X2 (ix2 e k))
          (fun k j => W1 (ix2 (⟨k.val, by have := k.isLt; omega⟩ : Fin 384) j))
          (fun k j => W1 (ix2 (⟨128 + k.val, by have := k.isLt; omega⟩ : Fin 384) j))
          (fun k j => W1 (ix2 (⟨256 + k.val, by have := k.isLt; omega⟩ : Fin 384) j))
          (fun j => B1 (ix1 j)) (fun j d => W2 (ix2 j d)) (fun d => B2 (ix1 d)) (fun d => Gm (ix1 d))
          (fun d => Bt (ix1 d)) d := rfl

end Cert.EdgeMlp

end
-- ==== Proof.KernelRow.lean ====
/-
  The kernel body's three computed values at one entry of a 2048 × 128 block, as the row mathematics of EdgeSpec.

  Row `r` of the block is one edge. The body's second linear layer at (r, d) is `proj` of the activated
  pre-activations of row r; its row mean at r is `mean` of that row; and what it stores at (r, d) is `norm` of the
  row. The three matrix products are sums over the contracted coordinate, a lane reduction is a sum over the lane,
  a change of float format is the identity, and a one-row operand broadcast over the rows reads its one row.
-/
import proofs.«165578_j6133213298853_1_alg».proof.Proof.Gen.KernelIdeal.Skeleton
import proofs.«165578_j6133213298853_1_alg».proof.Proof.LibDot
import proofs.«165578_j6133213298853_1_alg».proof.Proof.EdgeSpec
import Idealize.ShloMosaic.Lib.ValueLayout
import Idealize.ShloMosaic.Lib.Pipeline.Value

noncomputable section

open scoped BigOperators

namespace Cert.EdgeMlp.KernelSide

open Cert.KernelIdeal Cert.KernelIdeal.Gen Idealize.ShloMosaic Idealize.ShloMosaic.ValueIdx Cert.EdgeMlp

/-- A lane sum of a 2048 × 128 block, at row `r`, is the sum of that row's 128 entries. -/
theorem rowsum_apply (x : FVec Ideal S2048x128 .f32) (r : Fin 2048) :
    multiReduction (F := Ideal) .add [1] S2048 x 0x00000000#32 reduces_S2048x128_S2048 (.inl rfl) rfl (ix1 r)
      = ∑ k : Fin 128, x (ix2 r k) := by
  refine (Ideal.multiReduction_add_single x 0x00000000#32 reduces_S2048x128_S2048 (.inl rfl) rfl (ix1 r)).trans ?_
  refine Finset.sum_congr rfl fun k _ => congrArg x ?_
  funext a
  apply Fin.ext
  match a with
  | ⟨0, _⟩ => rfl
  | ⟨1, _⟩ => rfl

/-- A 2048-vector cast to a 2048 × 1 column reads, at (r, 0), its entry r. -/
theorem column_apply (x : FVec Ideal S2048 .f32) (r : Fin 2048) (u : Fin 1) :
    shapeCast S2048x1 x shapeCasts_S2048_S2048x1 (ix2 r u) = x (ix1 r) :=
  shapeCast_apply x shapeCasts_S2048_S2048x1 _ _ (by
    have hu : u.val = 0 := by omega
    rw [Shape.rowMajor_val_two, Shape.rowMajor_val_one]
    show r.val = r.val * 1 + u.val
    omega)

/-- A 2048 × 1 column broadcast over 128 lanes reads, at (r, d), the column at (r, 0). -/
theorem lanes_apply (x : FVec Ideal S2048x1 .f32) (r : Fin 2048) (d : Fin 128) :
    broadcastTo S2048x128 x broadcasts_S2048x1_S2048x128 (ix2 r d) = x (ix2 r (0 : Fin 1)) := by
  refine broadcastTo_apply x broadcasts_S2048x1_S2048x128 (ix2 r d) (ix2 r (0 : Fin 1)) fun ax => ?_
  match ax with
  | ⟨0, _⟩ =>
    show r.val = if (2048 : Nat) = 1 then 0 else r.val
    rw [if_neg (by decide)]
  | ⟨1, _⟩ => rfl

/-- The second linear layer at (r, d): `proj` of the activated pre-activations of row `r`. -/
theorem pay2_apply (v0 v2 v4 : Vec Ideal S2048x128 .f32) (v6 v9 v13 : Vec Ideal S128x512 .bf16)
    (v17 : Vec Ideal S1x512 .f32) (v24 : Vec Ideal S512x128 .bf16) (v27 : Vec Ideal S1x128 .f32)
    (r : Fin 2048) (d : Fin 128) :
    k0_pay2 (F := Ideal) v0 v2 v4 v6 v9 v13 v17 v24 v27 (ix2 r d)
      = proj (fun j => act (pre (fun k => v0 (ix2 r k)) (fun k => v2 (ix2 r k)) (fun k => v4 (ix2 r k))
            (fun k j => v6 (ix2 k j)) (fun k j => v9 (ix2 k j)) (fun k j => v13 (ix2 k j))
            (fun j => v17 (ix2 (0 : Fin 1) j)) j))
          (fun j d => v24 (ix2 j d)) (fun d => v27 (ix2 (0 : Fin 1) d)) d := by
  unfold k0_pay2
  simp only [shapeCast_self]
  rw [addf_apply, LibDot.matmul_10_zero_apply _ rfl rfl rfl rfl rfl rfl, broadcastTo_1b_ab_apply]
  unfold proj
  refine congrArg (· + _) (Finset.sum_congr rfl fun j _ => ?_)
  rw [truncf_apply, mulf_apply]
  show (_ : EReal) * Ideal.logistic _ * _ = act _ * _
  unfold act
  have hp : (addf (addf (addf
        (matmul (F := Ideal) (φ₁ := .bf16) (φ₂ := .bf16) dot_S2048x128_S128x512_S2048x512_1_0_0_1_n_n none (truncf .bf16 v0 bitsLt_bf16_f32) v6
          (constant S2048x512 .f32 0x00000000#32))
        (matmul (F := Ideal) (φ₁ := .bf16) (φ₂ := .bf16) dot_S2048x128_S128x512_S2048x512_1_0_0_1_n_n none (truncf .bf16 v2 bitsLt_bf16_f32) v9
          (constant S2048x512 .f32 0x00000000#32)))
        (matmul (F := Ideal) (φ₁ := .bf16) (φ₂ := .bf16) dot_S2048x128_S128x512_S2048x512_1_0_0_1_n_n none (truncf .bf16 v4 bitsLt_bf16_f32) v13
          (constant S2048x512 .f32 0x00000000#32)))
        (broadcastTo S2048x512 v17 broadcasts_S1x512_S2048x512)) (ix2 r j)
      = pre (fun k => v0 (ix2 r k)) (fun k => v2 (ix2 r k)) (fun k => v4 (ix2 r k))
            (fun k j => v6 (ix2 k j)) (fun k j => v9 (ix2 k j)) (fun k j => v13 (ix2 k j))
            (fun j => v17 (ix2 (0 : Fin 1) j)) j := by
    rw [addf_apply, addf_apply, addf_apply, LibDot.matmul_10_zero_apply _ rfl rfl rfl rfl rfl rfl,
      LibDot.matmul_10_zero_apply _ rfl rfl rfl rfl rfl rfl, LibDot.matmul_10_zero_apply _ rfl rfl rfl rfl rfl rfl,
      broadcastTo_1b_ab_apply]
    rfl
  rw [hp]

/-- The reciprocal square root of a vector, at an entry. -/
theorem rsqrt_apply {s : Shape} {φ : FTy} (a : FVec Ideal s φ) (i : s.Idx) : rsqrt a i = Ideal.rsqrt (a i) := rfl

/-- The row mean the body computes, at (r, 0): `mean` of row `r` of the second linear layer. -/
theorem pay3_apply (v0 v2 v4 : Vec Ideal S2048x128 .f32) (v6 v9 v13 : Vec Ideal S128x512 .bf16)
    (v17 : Vec Ideal S1x512 .f32) (v24 : Vec Ideal S512x128 .bf16) (v27 : Vec Ideal S1x128 .f32)
    (r : Fin 2048) (u : Fin 1) :
    k0_pay3 (F := Ideal) v0 v2 v4 v6 v9 v13 v17 v24 v27 (ix2 r u)
      = mean (fun d => k0_pay2 (F := Ideal) v0 v2 v4 v6 v9 v13 v17 v24 v27 (ix2 r d)) := by
  unfold k0_pay3
  rw [divf_apply, column_apply, rowsum_apply]
  rfl

/-- What the body stores at (r, d), given that its third operand holds the row means of its second: `norm` of row
    `r` with the scale and shift rows and the residual block. -/
theorem pay1_apply (v4 : Vec Ideal S2048x128 .f32) (v30 : FVec Ideal S2048x128 .f32) (v34 : FVec Ideal S2048x1 .f32)
    (v49 v53 : Vec Ideal S1x128 .f32) (r : Fin 2048) (d : Fin 128)
    (hμ : v34 (ix2 r (0 : Fin 1)) = mean (fun k => v30 (ix2 r k))) :
    k0_pay1 (F := Ideal) v4 v30 v34 v49 v53 (ix2 r d)
      = norm (fun k => v30 (ix2 r k)) (fun d => v49 (ix2 (0 : Fin 1) d)) (fun d => v53 (ix2 (0 : Fin 1) d))
          (fun d => v4 (ix2 r d)) d := by
  unfold k0_pay1
  simp only [shapeCast_self]
  simp only [addf_apply, mulf_apply, subf_apply, divf_apply, rsqrt_apply, lanes_apply, broadcastTo_1b_ab_apply,
    column_apply, broadcast_apply]
  rw [rowsum_apply]
  simp only [mulf_apply, subf_apply, lanes_apply, hμ]
  rfl

/-- What the body stores at (r, d), from the blocks it loads: the update of the edge in row `r` at output unit `d`. -/
theorem store_apply (v0 v2 v4 : Vec Ideal S2048x128 .f32) (v6 v9 v13 : Vec Ideal S128x512 .bf16)
    (v17 : Vec Ideal S1x512 .f32) (v24 : Vec Ideal S512x128 .bf16) (v27 v49 v53 : Vec Ideal S1x128 .f32)
    (r : Fin 2048) (d : Fin 128) :
    k0_pay1 (F := Ideal) v4 (k0_pay2 v0 v2 v4 v6 v9 v13 v17 v24 v27) (k0_pay3 v0 v2 v4 v6 v9 v13 v17 v24 v27) v49 v53
        (ix2 r d)
      = edge (fun k => v0 (ix2 r k)) (fun k => v2 (ix2 r k)) (fun k => v4 (ix2 r k))
          (fun k j => v6 (ix2 k j)) (fun k j => v9 (ix2 k j)) (fun k j => v13 (ix2 k j))
          (fun j => v17 (ix2 (0 : Fin 1) j)) (fun j d => v24 (ix2 j d)) (fun d => v27 (ix2 (0 : Fin 1) d))
          (fun d => v49 (ix2 (0 : Fin 1) d)) (fun d => v53 (ix2 (0 : Fin 1) d)) d := by
  rw [pay1_apply v4 _ _ v49 v53 r d (pay3_apply v0 v2 v4 v6 v9 v13 v17 v24 v27 r 0)]
  unfold edge
  simp only [pay2_apply]

end Cert.EdgeMlp.KernelSide

end
-- ==== Proof.KernelArray.lean ====
/-
  From blocks to the array: the kernel's result array, after its 128 grid points, is `edgeArr` of the arguments.

  Grid point `t` works on rows 2048·t … 2048·t + 2047: it stages those rows of the three feature arrays, and the whole
  of the eight parameter arrays — the three 128-row blocks of the first weight matrix, the second weight matrix, and the
  bias, scale and shift vectors as single rows — and writes those rows of the result back. Row `r` of its block is edge
  2048·t + r, so what it writes back is block `t` of `edgeArr`; the 128 blocks cover the array.
-/
import proofs.«165578_j6133213298853_1_alg».proof.Proof.Gen.KernelIdeal.Value
import proofs.«165578_j6133213298853_1_alg».proof.Proof.KernelRow
import Idealize.ShloMosaic.Lib.StableHlo.Run
import Idealize.ShloMosaic.Lib.ValueLayout

set_option maxRecDepth 16384

noncomputable section

open scoped BigOperators

namespace Cert.EdgeMlp.KernelArray

open Cert.KernelIdeal Cert.KernelIdeal.Gen Idealize.ShloMosaic Idealize.ShloMosaic.TcCoe Idealize.SL.Sem
open Idealize.ShloMosaic.ValueIdx Idealize.ShloMosaic.StableHlo Cert.EdgeMlp
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block index maps over the 128 grid points: the three feature windows and the result window are at block row
    `t`, every parameter window stays at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_11.index t (0 : Fin 2) = t.val ∧ win0_11.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-- Row `r` of grid point `t`'s block is edge 2048·t + r. -/
def edgeOf (t : Fin cfg0.N) (r : Fin 2048) : Fin 262144 :=
  ⟨t.val * 2048 + r.val, by have ht : t.val < grid0.N := t.isLt; rw [N_0] at ht; have := r.isLt; omega⟩

/-! ## The parameter arrays as the region finds them -/

theorem V_w1i (c : Dev nD) : (V m c main_v1 : S128x512.Idx → EReal)
    = truncf (F := Ideal) .bf16 (extractStridedSlice S128x512 ![0, 0] (α := EReal) (m ((c : Thread nD τ).loc main_arg3)) slices_S384x512_S128x512_0_0) bitsLt_bf16_f32 := by
  dsimp only [V, hostOps0]; after_results

theorem V_w1j (c : Dev nD) : (V m c main_v3 : S128x512.Idx → EReal)
    = truncf (F := Ideal) .bf16 (extractStridedSlice S128x512 ![128, 0] (α := EReal) (m ((c : Thread nD τ).loc main_arg3)) slices_S384x512_S128x512_128_0) bitsLt_bf16_f32 := by
  dsimp only [V, hostOps0]; after_results

theorem V_w1e (c : Dev nD) : (V m c main_v5 : S128x512.Idx → EReal)
    = truncf (F := Ideal) .bf16 (extractStridedSlice S128x512 ![256, 0] (α := EReal) (m ((c : Thread nD τ).loc main_arg3)) slices_S384x512_S128x512_256_0) bitsLt_bf16_f32 := by
  dsimp only [V, hostOps0]; after_results

theorem V_w2 (c : Dev nD) : (V m c main_v6 : S512x128.Idx → EReal)
    = truncf (F := Ideal) (φ := .f32) (s := S512x128) .bf16 (m ((c : Thread nD τ).loc main_arg5)) bitsLt_bf16_f32 := by
  dsimp only [V, hostOps0]; after_results

theorem V_b1 (c : Dev nD) : (V m c main_v7 : S1x512.Idx → EReal)
    = shapeCast S1x512 (m ((c : Thread nD τ).loc main_arg4)) shapeCasts_S512_S1x512 := by
  dsimp only [V, hostOps0]; after_results; rfl

theorem V_b2 (c : Dev nD) : (V m c main_v8 : S1x128.Idx → EReal)
    = shapeCast S1x128 (m ((c : Thread nD τ).loc main_arg6)) shapeCasts_S128_S1x128 := by
  dsimp only [V, hostOps0]; after_results; rfl

theorem V_gamma (c : Dev nD) : (V m c main_v9 : S1x128.Idx → EReal)
    = shapeCast S1x128 (m ((c : Thread nD τ).loc main_arg7)) shapeCasts_S128_S1x128 := by
  dsimp only [V, hostOps0]; after_results; rfl

theorem V_beta (c : Dev nD) : (V m c main_v10 : S1x128.Idx → EReal)
    = shapeCast S1x128 (m ((c : Thread nD τ).loc main_arg8)) shapeCasts_S128_S1x128 := by
  dsimp only [V, hostOps0]; after_results; rfl

/-! ## Each window's block at a point, read off the arguments -/

/-- Row `r` of the first feature window's block at point `t` is row 2048·t + r of the first argument. -/
theorem blk0 (c : Dev nD) (t : Fin cfg0.N) (r : Fin 2048) (k : Fin 128) :
    iblk m c 0 t (ix2 r k) = m ((c : Thread nD τ).loc main_arg0) (ix2 (edgeOf t r) k) := by
  show V m c main_arg0 (((cfg0.win 0).blk t).view.emb (ix2 r k)) = _
  rw [V_main_arg0]
  refine congrArg _ ?_
  obtain ⟨⟨e0, e1⟩, -⟩ := idx_facts t
  funext a
  apply Fin.ext
  match a with
  | ⟨0, _⟩ => show win0_0.index t (0 : Fin 2) * 2048 + 1 * r.val = t.val * 2048 + r.val; omega
  | ⟨1, _⟩ => show win0_0.index t (1 : Fin 2) * 128 + 1 * k.val = k.val; omega

theorem blk1 (c : Dev nD) (t : Fin cfg0.N) (r : Fin 2048) (k : Fin 128) :
    iblk m c 1 t (ix2 r k) = m ((c : Thread nD τ).loc main_arg1) (ix2 (edgeOf t r) k) := by
  show V m c main_arg1 (((cfg0.win 1).blk t).view.emb (ix2 r k)) = _
  rw [V_main_arg1]
  refine congrArg _ ?_
  obtain ⟨-, ⟨e0, e1⟩, -⟩ := idx_facts t
  funext a
  apply Fin.ext
  match a with
  | ⟨0, _⟩ => show win0_1.index t (0 : Fin 2) * 2048 + 1 * r.val = t.val * 2048 + r.val; omega
  | ⟨1, _⟩ => show win0_1.index t (1 : Fin 2) * 128 + 1 * k.val = k.val; omega

theorem blk2 (c : Dev nD) (t : Fin cfg0.N) (r : Fin 2048) (k : Fin 128) :
    iblk m c 2 t (ix2 r k) = m ((c : Thread nD τ).loc main_arg2) (ix2 (edgeOf t r) k) := by
  show V m c main_arg2 (((cfg0.win 2).blk t).view.emb (ix2 r k)) = _
  rw [V_main_arg2]
  refine congrArg _ ?_
  obtain ⟨-, -, ⟨e0, e1⟩, -⟩ := idx_facts t
  funext a
  apply Fin.ext
  match a with
  | ⟨0, _⟩ => show win0_2.index t (0 : Fin 2) * 2048 + 1 * r.val = t.val * 2048 + r.val; omega
  | ⟨1, _⟩ => show win0_2.index t (1 : Fin 2) * 128 + 1 * k.val = k.val; omega

/-- The first weight block is rows 0–127 of the first weight matrix, at every point. -/
theorem blk3 (c : Dev nD) (t : Fin cfg0.N) (k : Fin 128) (j : Fin 512) :
    iblk m c 3 t (ix2 k j)
      = m ((c : Thread nD τ).loc main_arg3) (ix2 (⟨k.val, by have := k.isLt; omega⟩ : Fin 384) j) := by
  show V m c main_v1 (((cfg0.win 3).blk t).view.emb (ix2 k j)) = _
  obtain ⟨-, -, -, -, ⟨e0, e1⟩, -⟩ := idx_facts t
  have he : ((cfg0.win 3).blk t).view.emb (ix2 k j) = ix2 k j := by
    funext a
    apply Fin.ext
    match a with
    | ⟨0, _⟩ => show win0_3.index t (0 : Fin 2) * 128 + 1 * k.val = k.val; omega
    | ⟨1, _⟩ => show win0_3.index t (1 : Fin 2) * 512 + 1 * j.val = j.val; omega
  rw [he, V_w1i]
  exact slice2_axis0_apply 0 (m ((c : Thread nD τ).loc main_arg3)) slices_S384x512_S128x512_0_0 k j _ (Nat.zero_add _).symm

/-- The second weight block is rows 128–255. -/
theorem blk4 (c : Dev nD) (t : Fin cfg0.N) (k : Fin 128) (j : Fin 512) :
    iblk m c 4 t (ix2 k j)
      = m ((c : Thread nD τ).loc main_arg3) (ix2 (⟨128 + k.val, by have := k.isLt; omega⟩ : Fin 384) j) := by
  show V m c main_v3 (((cfg0.win 4).blk t).view.emb (ix2 k j)) = _
  obtain ⟨-, -, -, -, -, ⟨e0, e1⟩, -⟩ := idx_facts t
  have he : ((cfg0.win 4).blk t).view.emb (ix2 k j) = ix2 k j := by
    funext a
    apply Fin.ext
    match a with
    | ⟨0, _⟩ => show win0_4.index t (0 : Fin 2) * 128 + 1 * k.val = k.val; omega
    | ⟨1, _⟩ => show win0_4.index t (1 : Fin 2) * 512 + 1 * j.val = j.val; omega
  rw [he, V_w1j]
  exact slice2_axis0_apply 128 (m ((c : Thread nD τ).loc main_arg3)) slices_S384x512_S128x512_128_0 k j _ rfl

/-- The third weight block is rows 256–383. -/
theorem blk5 (c : Dev nD) (t : Fin cfg0.N) (k : Fin 128) (j : Fin 512) :
    iblk m c 5 t (ix2 k j)
      = m ((c : Thread nD τ).loc main_arg3) (ix2 (⟨256 + k.val, by have := k.isLt; omega⟩ : Fin 384) j) := by
  show V m c main_v5 (((cfg0.win 5).blk t).view.emb (ix2 k j)) = _
  obtain ⟨-, -, -, -, -, -, ⟨e0, e1⟩, -⟩ := idx_facts t
  have he : ((cfg0.win 5).blk t).view.emb (ix2 k j) = ix2 k j := by
    funext a
    apply Fin.ext
    match a with
    | ⟨0, _⟩ => show win0_5.index t (0 : Fin 2) * 128 + 1 * k.val = k.val; omega
    | ⟨1, _⟩ => show win0_5.index t (1 : Fin 2) * 512 + 1 * j.val = j.val; omega
  rw [he, V_w1e]
  exact slice2_axis0_apply 256 (m ((c : Thread nD τ).loc main_arg3)) slices_S384x512_S128x512_256_0 k j _ rfl

/-- The first bias, staged as one row of 512. -/
theorem blk6 (c : Dev nD) (t : Fin cfg0.N) (j : Fin 512) :
    iblk m c 6 t (ix2 (0 : Fin 1) j) = m ((c : Thread nD τ).loc main_arg4) (ix1 j) := by
  show V m c main_v7 (((cfg0.win 6).blk t).view.emb (ix2 (0 : Fin 1) j)) = _
  obtain ⟨-, -, -, -, -, -, -, ⟨e0, e1⟩, -⟩ := idx_facts t
  have he : ((cfg0.win 6).blk t).view.emb (ix2 (0 : Fin 1) j) = ix2 (0 : Fin 1) j := by
    funext a
    apply Fin.ext
    match a with
    | ⟨0, _⟩ => show win0_6.index t (0 : Fin 2) * 1 + 1 * 0 = 0; omega
    | ⟨1, _⟩ => show win0_6.index t (1 : Fin 2) * 512 + 1 * j.val = j.val; omega
  rw [he, V_b1]
  exact shapeCast_a_1a_apply _ _ 0 j

/-- The second weight matrix, whole. -/
theorem blk7 (c : Dev nD) (t : Fin cfg0.N) (j : Fin 512) (d : Fin 128) :
    iblk m c 7 t (ix2 j d) = m ((c : Thread nD τ).loc main_arg5) (ix2 j d) := by
  show V m c main_v6 (((cfg0.win 7).blk t).view.emb (ix2 j d)) = _
  obtain ⟨-, -, -, -, -, -, -, -, ⟨e0, e1⟩, -⟩ := idx_facts t
  have he : ((cfg0.win 7).blk t).view.emb (ix2 j d) = ix2 j d := by
    funext a
    apply Fin.ext
    match a with
    | ⟨0, _⟩ => show win0_7.index t (0 : Fin 2) * 512 + 1 * j.val = j.val; omega
    | ⟨1, _⟩ => show win0_7.index t (1 : Fin 2) * 128 + 1 * d.val = d.val; omega
  rw [he, V_w2]
  rfl

/-- The second bias, staged as one row of 128. -/
theorem blk8 (c : Dev nD) (t : Fin cfg0.N) (d : Fin 128) :
    iblk m c 8 t (ix2 (0 : Fin 1) d) = m ((c : Thread nD τ).loc main_arg6) (ix1 d) := by
  show V m c main_v8 (((cfg0.win 8).blk t).view.emb (ix2 (0 : Fin 1) d)) = _
  obtain ⟨-, -, -, -, -, -, -, -, -, ⟨e0, e1⟩, -⟩ := idx_facts t
  have he : ((cfg0.win 8).blk t).view.emb (ix2 (0 : Fin 1) d) = ix2 (0 : Fin 1) d := by
    funext a
    apply Fin.ext
    match a with
    | ⟨0, _⟩ => show win0_8.index t (0 : Fin 2) * 1 + 1 * 0 = 0; omega
    | ⟨1, _⟩ => show win0_8.index t (1 : Fin 2) * 128 + 1 * d.val = d.val; omega
  rw [he, V_b2]
  exact shapeCast_a_1a_apply _ _ 0 d

/-- The scale vector, staged as one row of 128. -/
theorem blk9 (c : Dev nD) (t : Fin cfg0.N) (d : Fin 128) :
    iblk m c 9 t (ix2 (0 : Fin 1) d) = m ((c : Thread nD τ).loc main_arg7) (ix1 d) := by
  show V m c main_v9 (((cfg0.win 9).blk t).view.emb (ix2 (0 : Fin 1) d)) = _
  obtain ⟨-, -, -, -, -, -, -, -, -, -, ⟨e0, e1⟩, -⟩ := idx_facts t
  have he : ((cfg0.win 9).blk t).view.emb (ix2 (0 : Fin 1) d) = ix2 (0 : Fin 1) d := by
    funext a
    apply Fin.ext
    match a with
    | ⟨0, _⟩ => show win0_9.index t (0 : Fin 2) * 1 + 1 * 0 = 0; omega
    | ⟨1, _⟩ => show win0_9.index t (1 : Fin 2) * 128 + 1 * d.val = d.val; omega
  rw [he, V_gamma]
  exact shapeCast_a_1a_apply _ _ 0 d

/-- The shift vector, staged as one row of 128. -/
theorem blk10 (c : Dev nD) (t : Fin cfg0.N) (d : Fin 128) :
    iblk m c 10 t (ix2 (0 : Fin 1) d) = m ((c : Thread nD τ).loc main_arg8) (ix1 d) := by
  show V m c main_v10 (((cfg0.win 10).blk t).view.emb (ix2 (0 : Fin 1) d)) = _
  obtain ⟨-, -, -, -, -, -, -, -, -, -, -, e0, e1⟩ := idx_facts t
  have he : ((cfg0.win 10).blk t).view.emb (ix2 (0 : Fin 1) d) = ix2 (0 : Fin 1) d := by
    funext a
    apply Fin.ext
    match a with
    | ⟨0, _⟩ => show win0_10.index t (0 : Fin 2) * 1 + 1 * 0 = 0; omega
    | ⟨1, _⟩ => show win0_10.index t (1 : Fin 2) * 128 + 1 * d.val = d.val; omega
  rw [he, V_beta]
  exact shapeCast_a_1a_apply _ _ 0 d

/-! ## What a point writes back, the cover, the final array -/

/-- The result array as the function of the arguments it ends holding. -/
abbrev target (c : Dev nD) : S262144x128.Idx → EReal :=
  edgeArr (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

/-- Entry (r, d) of the result window's block at point `t` is entry (2048·t + r, d) of the array. -/
theorem emb_out (t : Fin cfg0.N) (r : Fin 2048) (d : Fin 128) :
    ((cfg0.win 11).blk t).view.emb (ix2 r d) = ix2 (edgeOf t r) d := by
  obtain ⟨-, -, -, ⟨e0, e1⟩, -⟩ := idx_facts t
  funext a
  apply Fin.ext
  match a with
  | ⟨0, _⟩ => show win0_11.index t (0 : Fin 2) * 2048 + 1 * r.val = t.val * 2048 + r.val; omega
  | ⟨1, _⟩ => show win0_11.index t (1 : Fin 2) * 128 + 1 * d.val = d.val; omega

/-- What point `t` writes back is block `t` of `edgeArr` of the arguments. -/
theorem flushed_eq (c : Dev nD) (t : Fin cfg0.N) :
    (dats m 0 c).flushed 11 t = ((cfg0.win 11).blk t).view.read (Elt Ideal) (target m c) := by
  rw [Cert.KernelIdeal.Value.flushed11]
  unfold out0_11
  rw [View.canon_unit_zero hz]
  simp only [View.ld_unit_zero (S := S2048x128) hz, View.ld_unit_zero (S := S128x512) hz,
    View.ld_unit_zero (S := S1x512) hz, View.ld_unit_zero (S := S512x128) hz, View.ld_unit_zero (S := S1x128) hz]
  funext y
  obtain ⟨r, d, rfl⟩ : ∃ (r : Fin 2048) (d : Fin 128), y = ix2 r d := ⟨y 0, y 1, eq_ix2 y⟩
  show k0_pay1 (F := Ideal) (iblk m c 2 t)
      (k0_pay2 (iblk m c 0 t) (iblk m c 1 t) (iblk m c 2 t) (iblk m c 3 t) (iblk m c 4 t) (iblk m c 5 t) (iblk m c 6 t)
        (iblk m c 7 t) (iblk m c 8 t))
      (k0_pay3 (iblk m c 0 t) (iblk m c 1 t) (iblk m c 2 t) (iblk m c 3 t) (iblk m c 4 t) (iblk m c 5 t) (iblk m c 6 t)
        (iblk m c 7 t) (iblk m c 8 t))
      (iblk m c 9 t) (iblk m c 10 t) (ix2 r d)
    = target m c (((cfg0.win 11).blk t).view.emb (ix2 r d))
  refine (KernelSide.store_apply (iblk m c 0 t) (iblk m c 1 t) (iblk m c 2 t) (iblk m c 3 t) (iblk m c 4 t)
    (iblk m c 5 t) (iblk m c 6 t) (iblk m c 7 t) (iblk m c 8 t) (iblk m c 9 t) (iblk m c 10 t) r d).trans ?_
  rw [emb_out]
  dsimp only [target]
  rw [edgeArr_ix2]
  have b0 : (fun k => iblk m c 0 t (ix2 r k)) = fun k => m ((c : Thread nD τ).loc main_arg0) (ix2 (edgeOf t r) k) :=
    funext fun k => blk0 m c t r k
  have b1 : (fun k => iblk m c 1 t (ix2 r k)) = fun k => m ((c : Thread nD τ).loc main_arg1) (ix2 (edgeOf t r) k) :=
    funext fun k => blk1 m c t r k
  have b2 : (fun k => iblk m c 2 t (ix2 r k)) = fun k => m ((c : Thread nD τ).loc main_arg2) (ix2 (edgeOf t r) k) :=
    funext fun k => blk2 m c t r k
  have b3 : (fun k j => iblk m c 3 t (ix2 k j)) = fun (k : Fin 128) (j : Fin 512) =>
      m ((c : Thread nD τ).loc main_arg3) (ix2 (⟨k.val, by have := k.isLt; omega⟩ : Fin 384) j) :=
    funext fun k => funext fun j => blk3 m c t k j
  have b4 : (fun k j => iblk m c 4 t (ix2 k j)) = fun (k : Fin 128) (j : Fin 512) =>
      m ((c : Thread nD τ).loc main_arg3) (ix2 (⟨128 + k.val, by have := k.isLt; omega⟩ : Fin 384) j) :=
    funext fun k => funext fun j => blk4 m c t k j
  have b5 : (fun k j => iblk m c 5 t (ix2 k j)) = fun (k : Fin 128) (j : Fin 512) =>
      m ((c : Thread nD τ).loc main_arg3) (ix2 (⟨256 + k.val, by have := k.isLt; omega⟩ : Fin 384) j) :=
    funext fun k => funext fun j => blk5 m c t k j
  have b6 : (fun j => iblk m c 6 t (ix2 (0 : Fin 1) j)) = fun j => m ((c : Thread nD τ).loc main_arg4) (ix1 j) :=
    funext fun j => blk6 m c t j
  have b7 : (fun j d => iblk m c 7 t (ix2 j d)) = fun (j : Fin 512) (d : Fin 128) =>
      m ((c : Thread nD τ).loc main_arg5) (ix2 j d) :=
    funext fun j => funext fun d => blk7 m c t j d
  have b8 : (fun d => iblk m c 8 t (ix2 (0 : Fin 1) d)) = fun d => m ((c : Thread nD τ).loc main_arg6) (ix1 d) :=
    funext fun d => blk8 m c t d
  have b9 : (fun d => iblk m c 9 t (ix2 (0 : Fin 1) d)) = fun d => m ((c : Thread nD τ).loc main_arg7) (ix1 d) :=
    funext fun d => blk9 m c t d
  have b10 : (fun d => iblk m c 10 t (ix2 (0 : Fin 1) d)) = fun d => m ((c : Thread nD τ).loc main_arg8) (ix1 d) :=
    funext fun d => blk10 m c t d
  rw [b0, b1, b2, b3, b4, b5, b6, b7, b8, b9, b10]

/-- An index of the array is in point `t`'s block iff each coordinate is in the block's range on its axis. -/
theorem mem_blk (t : Fin cfg0.N) (i : S262144x128.Idx) :
    i ∈ ((cfg0.win 11).blk t).view.set ↔ ∀ a : Fin 2, win0_11.index t a * S2048x128.size a ≤ (i a).val
      ∧ (i a).val < win0_11.index t a * S2048x128.size a + S2048x128.size a := by
  show i ∈ ((View.whole main_v11).slice (win0_11.rect t)).set ↔ _
  rw [View.set_slice_whole, Rect.mem_set_unit]
  exact Iff.rfl

/-- Every entry of the array is in the block of the point that owns its row: point ⌊e / 2048⌋ for row e. -/
theorem covered (i : S262144x128.Idx) :
    ∃ t : Fin cfg0.N, (cfg0.win 11).flush t = true ∧ i ∈ ((cfg0.win 11).blk t).view.set := by
  have hi0 : (i 0).val < 262144 := (i 0).isLt
  have hi1 : (i 1).val < 128 := (i 1).isLt
  have hN : (i 0).val / 2048 < grid0.N := by rw [N_0]; omega
  let t : Fin cfg0.N := ⟨(i 0).val / 2048, hN⟩
  have htv : t.val = (i 0).val / 2048 := rfl
  obtain ⟨-, -, -, ⟨e0, e1⟩, -⟩ := idx_facts t
  refine ⟨t, flush0_11 t, ?_⟩
  rw [mem_blk]
  intro a
  match a with
  | ⟨0, _⟩ =>
    show win0_11.index t (0 : Fin 2) * 2048 ≤ (i 0).val ∧ (i 0).val < win0_11.index t (0 : Fin 2) * 2048 + 2048
    omega
  | ⟨1, _⟩ =>
    show win0_11.index t (1 : Fin 2) * 128 ≤ (i 1).val ∧ (i 1).val < win0_11.index t (1 : Fin 2) * 128 + 128
    omega

/-- The result array after the run is `edgeArr` of the arguments. -/
theorem final (c : Dev nD) : (dats m 0 c).arrAt 11 cfg0.N = target m c :=
  (dats m 0 c).arrAt_eq_of_cover 11 (target m c) (fun t _ => flushed_eq m c t) covered

end Cert.EdgeMlp.KernelArray

end
-- ==== Proof.RefRow.lean ====
/-
  The reference's result at one entry, as the row mathematics of EdgeSpec.

  Entry (e, d) of the result depends on row `e` of the three feature arrays only. Row `e` of their concatenation is
  the three rows laid end to end, so the first matrix product's sum over 384 terms is the sum of three sums of 128
  (`sum_three_blocks`), against rows 0–127, 128–255 and 256–383 of the first weight matrix. The logistic function spelt
  out as 1 / (1 + exp (−x)) is the logistic function. The two means are a sum from zero divided by 128.
-/
import proofs.«165578_j6133213298853_1_alg».proof.Proof.Gen.ReferenceIdeal.Read
import proofs.«165578_j6133213298853_1_alg».proof.Proof.EdgeSpec
import Idealize.ShloMosaic.Lib.IdealHost

noncomputable section

open scoped BigOperators

namespace Cert.EdgeMlp.RefSide

open Cert.ReferenceIdeal Cert.ReferenceIdeal.Read Idealize.ShloMosaic Idealize.ShloMosaic.ValueIdx Cert.EdgeMlp

/-- A rank-2 index is determined by its two coordinates. -/
theorem idx2_eq {n0 n1 : Nat} (i : (⟨2, ![n0, n1]⟩ : Shape).Idx) (a : Fin n0) (b : Fin n1)
    (h0 : (i 0).val = a.val) (h1 : (i 1).val = b.val) : i = ix2 a b := by
  funext ax
  apply Fin.ext
  match ax with
  | ⟨0, _⟩ => exact h0
  | ⟨1, _⟩ => exact h1

/-- A rank-1 index is determined by its coordinate. -/
theorem idx1_eq {n : Nat} (i : (⟨1, ![n]⟩ : Shape).Idx) (a : Fin n) (h0 : (i 0).val = a.val) : i = ix1 a := by
  funext ax
  apply Fin.ext
  match ax with
  | ⟨0, _⟩ => exact h0

variable (x0 x1 x2 : (⟨S262144x128, .f32⟩ : BufTy).Contents (Elt Ideal))
  (x3 : (⟨S384x512, .f32⟩ : BufTy).Contents (Elt Ideal)) (x4 : (⟨S512, .f32⟩ : BufTy).Contents (Elt Ideal))
  (x5 : (⟨S512x128, .f32⟩ : BufTy).Contents (Elt Ideal)) (x6 x7 x8 : (⟨S128, .f32⟩ : BufTy).Contents (Elt Ideal))

/-! ## Row `e` of the concatenation -/

/-- Columns 0–127 of the concatenation are the first array's. -/
theorem cat_left (e : Fin 262144) (k : Fin 128) (h : k.val < 384) :
    val_main_v0 (F := Ideal) x0 x1 x2 (ix2 e ⟨k.val, h⟩) = x0 (ix2 e k) := by
  unfold val_main_v0
  refine concatenate_apply_piece (t := S262144x384) (1 : Fin 2) [⟨S262144x128, x0⟩, ⟨S262144x128, x1⟩, ⟨S262144x128, x2⟩] Gen.concatenates_S262144x128_S262144x128_S262144x128_S262144x384_d1 (ix2 e ⟨k.val, h⟩) 0
    (by show (0 : Nat) < 3; omega) S262144x128 x0 rfl rfl 0 rfl (ix2 e k) (fun b hb => ?_) (Nat.zero_add _)
  match b with
  | ⟨0, _⟩ => rfl
  | ⟨1, _⟩ => exact absurd rfl hb

/-- Columns 128–255 are the second array's. -/
theorem cat_mid (e : Fin 262144) (k : Fin 128) (h : 128 + k.val < 384) :
    val_main_v0 (F := Ideal) x0 x1 x2 (ix2 e ⟨128 + k.val, h⟩) = x1 (ix2 e k) := by
  unfold val_main_v0
  refine concatenate_apply_piece (t := S262144x384) (1 : Fin 2) [⟨S262144x128, x0⟩, ⟨S262144x128, x1⟩, ⟨S262144x128, x2⟩] Gen.concatenates_S262144x128_S262144x128_S262144x128_S262144x384_d1 (ix2 e ⟨128 + k.val, h⟩) 1
    (by show (1 : Nat) < 3; omega) S262144x128 x1 rfl rfl 128 rfl (ix2 e k) (fun b hb => ?_) rfl
  match b with
  | ⟨0, _⟩ => rfl
  | ⟨1, _⟩ => exact absurd rfl hb

/-- Columns 256–383 are the third array's. -/
theorem cat_right (e : Fin 262144) (k : Fin 128) (h : 256 + k.val < 384) :
    val_main_v0 (F := Ideal) x0 x1 x2 (ix2 e ⟨256 + k.val, h⟩) = x2 (ix2 e k) := by
  unfold val_main_v0
  refine concatenate_apply_piece (t := S262144x384) (1 : Fin 2) [⟨S262144x128, x0⟩, ⟨S262144x128, x1⟩, ⟨S262144x128, x2⟩] Gen.concatenates_S262144x128_S262144x128_S262144x128_S262144x384_d1 (ix2 e ⟨256 + k.val, h⟩) 2
    (by show (2 : Nat) < 3; omega) S262144x128 x2 rfl rfl 256 rfl (ix2 e k) (fun b hb => ?_) rfl
  match b with
  | ⟨0, _⟩ => rfl
  | ⟨1, _⟩ => exact absurd rfl hb

/-! ## The stages -/

/-- The first linear layer at (e, j): the pre-activation of row `e`, the weight matrix cut into its three row blocks. -/
theorem pre_apply (e : Fin 262144) (j : Fin 512) :
    val_main_v4 (F := Ideal) x0 x1 x2 x3 x4 (ix2 e j)
      = pre (fun k => x0 (ix2 e k)) (fun k => x1 (ix2 e k)) (fun k => x2 (ix2 e k))
          (fun k j => x3 (ix2 (⟨k.val, by have := k.isLt; omega⟩ : Fin 384) j))
          (fun k j => x3 (ix2 (⟨128 + k.val, by have := k.isLt; omega⟩ : Fin 384) j))
          (fun k j => x3 (ix2 (⟨256 + k.val, by have := k.isLt; omega⟩ : Fin 384) j))
          (fun j => x4 (ix1 j)) j := by
  rw [val_main_v4_apply, val_main_v1_apply, val_main_v3_apply, val_main_v2_apply, sum_three_blocks]
  have hl : ∀ k : Fin 384, lidx_main_v1 (ix2 e j) k = ix2 e k := fun k => idx2_eq _ _ _ rfl rfl
  have hr : ∀ k : Fin 384, ridx_main_v1 (ix2 e j) k = ix2 k j := fun k => idx2_eq _ _ _ rfl rfl
  have hb : idx_main_v2 (idx_main_v3 (ix2 e j)) = ix1 j := idx1_eq _ _ rfl
  simp only [hl, hr, hb, cat_left, cat_mid, cat_right]
  rfl

/-- x · (1 / (1 + exp (−x))) at (e, j) is x · logistic x. -/
theorem act_apply (e : Fin 262144) (j : Fin 512) :
    val_main_v5 (F := Ideal) x0 x1 x2 x3 x4 (ix2 e j) = act (val_main_v4 (F := Ideal) x0 x1 x2 x3 x4 (ix2 e j)) := by
  rw [val_main_v5_apply, val_main_call0_v5_apply, val_main_call0_v4_apply, val_main_call0_cst_0_apply,
    val_main_call0_v3_apply, val_main_call0_v2_apply, val_main_call0_cst_apply, val_main_call0_v1_apply,
    val_main_call0_v0_apply]
  show _ * Ideal.div (Ideal.ofBits .f32 0x3F800000#32) (Ideal.ofBits .f32 0x3F800000#32 + Ideal.exp (-_)) = _
  rw [Ideal.ofBits_one_f32]
  rfl

/-- The second linear layer at (e, d). -/
theorem proj_apply (e : Fin 262144) (d : Fin 128) :
    val_main_v9 (F := Ideal) x0 x1 x2 x3 x4 x5 x6 (ix2 e d)
      = proj (fun j => val_main_v5 (F := Ideal) x0 x1 x2 x3 x4 (ix2 e j)) (fun j d => x5 (ix2 j d))
          (fun d => x6 (ix1 d)) d := by
  rw [val_main_v9_apply, val_main_v6_apply, val_main_v8_apply, val_main_v7_apply]
  have hl : ∀ k : Fin 512, lidx_main_v6 (ix2 e d) k = ix2 e k := fun k => idx2_eq _ _ _ rfl rfl
  have hr : ∀ k : Fin 512, ridx_main_v6 (ix2 e d) k = ix2 k d := fun k => idx2_eq _ _ _ rfl rfl
  have hb : idx_main_v7 (idx_main_v8 (ix2 e d)) = ix1 d := idx1_eq _ _ rfl
  simp only [hl, hr, hb]
  rfl

/-- The row mean, as the reference broadcasts it back, at (e, 0). -/
theorem mean_apply (e : Fin 262144) (u : Fin 1) :
    val_main_v13 (F := Ideal) x0 x1 x2 x3 x4 x5 x6 (ix2 e u)
      = mean (fun k => val_main_v9 (F := Ideal) x0 x1 x2 x3 x4 x5 x6 (ix2 e k)) := by
  rw [val_main_v13_apply, val_main_v11_apply, val_main_v10_apply, val_main_v12_apply, val_main_cst_0_apply,
    val_main_cst_apply]
  have h1 : idx_main_v11 (ix2 e u) = ix1 e := idx1_eq _ _ rfl
  rw [h1]
  have h2 : ∀ k : Fin 128, idx_main_v10 (ix1 e) k = ix2 e k := fun k => idx2_eq _ _ _ rfl rfl
  simp only [h2]
  show Ideal.div (Ideal.ofBits .f32 0x00000000#32 + _) _ = _
  rw [Ideal.ofBits_zero_f32, zero_add]
  rfl

/-- Normalisation, scale, shift and residual at (e, d): `norm` of row `e` of the second linear layer. -/
theorem norm_apply (e : Fin 262144) (d : Fin 128) :
    val_main_v34 (F := Ideal) x0 x1 x2 x3 x4 x5 x6 x7 x8 (ix2 e d)
      = norm (fun k => val_main_v9 (F := Ideal) x0 x1 x2 x3 x4 x5 x6 (ix2 e k)) (fun d => x7 (ix1 d))
          (fun d => x8 (ix1 d)) (fun d => x2 (ix2 e d)) d := by
  have h21 : idx_main_v21 (ix2 e d) = ix2 e (0 : Fin 1) := idx2_eq _ _ _ rfl rfl
  have h26 : idx_main_v26 (ix2 e d) = ix2 e (0 : Fin 1) := idx2_eq _ _ _ rfl rfl
  have h18 : idx_main_v18 (ix2 e (0 : Fin 1)) = ix1 e := idx1_eq _ _ rfl
  have h17 : ∀ k : Fin 128, idx_main_v17 (ix1 e) k = ix2 e k := fun k => idx2_eq _ _ _ rfl rfl
  have h14 : ∀ k : Fin 128, idx_main_v14 (ix2 e k) = ix2 e (0 : Fin 1) := fun k => idx2_eq _ _ _ rfl rfl
  have h28 : idx_main_v28 (idx_main_v29 (ix2 e d)) = ix1 d := idx1_eq _ _ rfl
  have h31 : idx_main_v31 (idx_main_v32 (ix2 e d)) = ix1 d := idx1_eq _ _ rfl
  rw [val_main_v34_apply, val_main_v33_apply, val_main_v30_apply, val_main_v27_apply, val_main_v22_apply,
    val_main_v21_apply, val_main_v26_apply, val_main_v25_apply, val_main_v24_apply, val_main_v20_apply,
    val_main_v18_apply, val_main_v19_apply, val_main_cst_2_apply, val_main_v23_apply, val_main_cst_3_apply,
    val_main_v29_apply, val_main_v28_apply, val_main_v32_apply, val_main_v31_apply, h21, h26, h18, h28, h31,
    val_main_v17_apply, val_main_cst_1_apply]
  simp only [h17, val_main_v16_apply, val_main_v15_apply, val_main_v14_apply, h14, mean_apply]
  show ((_ - _) * Ideal.rsqrt (Ideal.div (Ideal.ofBits .f32 0x00000000#32 + _) _ + _) * _ + _) + _ = _
  rw [Ideal.ofBits_zero_f32, zero_add]
  rfl

/-- The reference's result at (e, d): the update of edge `e` at output unit `d`. -/
theorem result_apply (e : Fin 262144) (d : Fin 128) :
    val_main_v34 (F := Ideal) x0 x1 x2 x3 x4 x5 x6 x7 x8 (ix2 e d)
      = edge (fun k => x0 (ix2 e k)) (fun k => x1 (ix2 e k)) (fun k => x2 (ix2 e k))
          (fun k j => x3 (ix2 (⟨k.val, by have := k.isLt; omega⟩ : Fin 384) j))
          (fun k j => x3 (ix2 (⟨128 + k.val, by have := k.isLt; omega⟩ : Fin 384) j))
          (fun k j => x3 (ix2 (⟨256 + k.val, by have := k.isLt; omega⟩ : Fin 384) j))
          (fun j => x4 (ix1 j)) (fun j d => x5 (ix2 j d)) (fun d => x6 (ix1 d)) (fun d => x7 (ix1 d))
          (fun d => x8 (ix1 d)) d := by
  rw [norm_apply]
  unfold edge
  simp only [proj_apply, act_apply, pre_apply]

end Cert.EdgeMlp.RefSide

end
-- ==== Proof.lean ====
/-
  An edge update of a message-passing network, computed by a tiled kernel, against its plain reference.

  For each of 262144 edges: the source node's, target node's and edge's feature rows (128 each) go through a linear
  layer to 512 hidden units, x · logistic x, a second linear layer back to 128, layer normalisation with scale and
  shift, and the edge's own features are added back. The reference concatenates the three rows and multiplies by one
  384 × 512 matrix; the kernel multiplies each row by its own 128-row block of that matrix and adds the three products,
  2048 edges per grid point. On the extended reals the two are one function, `edgeArr`: a sum over 384 terms is the
  sum of its three blocks of 128 (associativity and commutativity of addition only, so the inputs' finiteness is never
  used), a change of float format is the identity, and the logistic function written out as 1 / (1 + exp (−x)) is the
  logistic function.

  The kernel's result array is `edgeArr` of the arguments (KernelArray.lean, over KernelRow.lean's reading of the body
  at one entry), the reference's result is `edgeArr` of the arguments (RefRow.lean), and the arguments agree.
  Both kernels' frames and the reference's run are the generated ones; no operation was rewritten by the idealization,
  so there is nothing to preserve.
-/
import proofs.«165578_j6133213298853_1_alg».proof.Defs
import proofs.«165578_j6133213298853_1_alg».proof.Proof.Gen.Kernel
import proofs.«165578_j6133213298853_1_alg».proof.Proof.Gen.Kernel.Skeleton
import proofs.«165578_j6133213298853_1_alg».proof.Proof.Gen.Kernel.Launch
import proofs.«165578_j6133213298853_1_alg».proof.Proof.Gen.Kernel.Points
import proofs.«165578_j6133213298853_1_alg».proof.Proof.Gen.Kernel.Frame
import proofs.«165578_j6133213298853_1_alg».proof.Proof.Gen.KernelIdeal
import proofs.«165578_j6133213298853_1_alg».proof.Proof.Gen.KernelIdeal.Skeleton
import proofs.«165578_j6133213298853_1_alg».proof.Proof.Gen.KernelIdeal.Launch
import proofs.«165578_j6133213298853_1_alg».proof.Proof.Gen.KernelIdeal.Points
import proofs.«165578_j6133213298853_1_alg».proof.Proof.Gen.KernelIdeal.Frame
import proofs.«165578_j6133213298853_1_alg».proof.Proof.Gen.ReferenceIdeal
import proofs.«165578_j6133213298853_1_alg».proof.Proof.Gen.Pre_finite_inputs
import proofs.«165578_j6133213298853_1_alg».proof.Proof.Gen.KernelIdeal.Value
import proofs.«165578_j6133213298853_1_alg».proof.Proof.Gen.ReferenceIdeal.Run
import proofs.«165578_j6133213298853_1_alg».proof.Proof.Gen.ReferenceIdeal.Read
import proofs.«165578_j6133213298853_1_alg».proof.Proof.KernelArray
import proofs.«165578_j6133213298853_1_alg».proof.Proof.RefRow
import Idealize.ShloMosaic.Adequacy
import Idealize.ShloMosaic.Init

noncomputable section

namespace Cert.Proof

open Idealize.ShloMosaic Idealize.SL.Sem Cert.Kernel

/-- The reference's result array is `edgeArr` of its arguments: entry by entry, the update of that entry's edge. -/
theorem reference_eq (x0 x1 x2 : (⟨Cert.ReferenceIdeal.S262144x128, .f32⟩ : BufTy).Contents (Elt Ideal))
    (x3 : (⟨Cert.ReferenceIdeal.S384x512, .f32⟩ : BufTy).Contents (Elt Ideal))
    (x4 : (⟨Cert.ReferenceIdeal.S512, .f32⟩ : BufTy).Contents (Elt Ideal))
    (x5 : (⟨Cert.ReferenceIdeal.S512x128, .f32⟩ : BufTy).Contents (Elt Ideal))
    (x6 x7 x8 : (⟨Cert.ReferenceIdeal.S128, .f32⟩ : BufTy).Contents (Elt Ideal)) :
    Cert.ReferenceIdeal.Read.val_main_v34 (F := Ideal) x0 x1 x2 x3 x4 x5 x6 x7 x8
      = Cert.EdgeMlp.edgeArr x0 x1 x2 x3 x4 x5 x6 x7 x8 := by
  funext i
  obtain ⟨e, d, rfl⟩ : ∃ (e : Fin 262144) (d : Fin 128), i = ValueIdx.ix2 e d := ⟨i 0, i 1, ValueIdx.eq_ix2 i⟩
  rw [Cert.EdgeMlp.RefSide.result_apply, Cert.EdgeMlp.edgeArr_ix2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2)
    (Cert.ReferenceIdeal.Value.run (F := Ideal) m ρ),
  trivial,
  by
    intro m ρ m' ρ' _ hagree
    refine ⟨fun c => Cert.EdgeMlp.KernelArray.target m c, ?_, ?_⟩
    · exact (θ_run Cert.KernelIdeal.defs _ _).mono
        (fun r h c => ⟨(h c).1.trans (Cert.EdgeMlp.KernelArray.final m c), (h c).2⟩)
        (Cert.KernelIdeal.Value.run_blocks m ρ)
    · refine (θ_run Cert.ReferenceIdeal.defs _ _).mono (fun _ h c => ⟨(h c).1.trans ?_, (h c).2⟩)
        (Cert.ReferenceIdeal.Value.run (F := Ideal) m' ρ')
      obtain ⟨a0, a1, a2, a3, a4, a5, a6, a7, a8⟩ := hagree c
      rw [Cert.ReferenceIdeal.Read.val_main_v34_eq, reference_eq, a0, a1, a2, a3, a4, a5, a6, a7, a8]⟩

end Cert.Proof

end
